-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S2x500000 : Shape := ⟨2, ![2, 500000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S256x128 .f32) (main_arg8 : FVec F S128 .f32) (main_arg9 : FVec F S128x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S2x500000 32) (main_arg3 : FVec F S128x128 .f32) (main_arg4 : FVec F S128 .f32) (main_arg5 : FVec F S128x128 .f32) (main_arg6 : FVec F S128 .f32) (main_arg7 : FVec F S256x128 .f32) (main_arg8 : FVec F S128 .f32) (main_arg9 : FVec F S128x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S2x500000 : Shape := ⟨2, ![2, 500000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S500000x256 : Shape := ⟨2, ![500000, 256]⟩
abbrev S1x1 : Shape := ⟨2, ![1, 1]⟩
abbrev S5000x256 : Shape := ⟨2, ![5000, 256]⟩
abbrev S5000x1 : Shape := ⟨2, ![5000, 1]⟩

abbrev nBuf : Space → Nat
  | .hbm => 121
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S2x500000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x128, .f32⟩
  | .hbm, ⟨84, _⟩ => ⟨S1700000x1, .f32⟩
  | .hbm, ⟨85, _⟩ => ⟨S1700000x128, .f32⟩
  | .hbm, ⟨86, _⟩ => ⟨S1700000x128, .f32⟩
  | .hbm, ⟨87, _⟩ => ⟨S_, .f32⟩
  | .hbm, ⟨88, _⟩ => ⟨S100000x128, .f32⟩
  | .hbm, ⟨89, _⟩ => ⟨S1700000x1, .i32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S1x500000, .i32⟩
  | .hbm, ⟨95, _⟩ => ⟨S500000, .i32⟩
  | .hbm, ⟨96, _⟩ => ⟨S1x500000, .i32⟩
  | .hbm, ⟨97, _⟩ => ⟨S500000, .i32⟩
  | .hbm, ⟨98, _⟩ => ⟨S_, .i32⟩
  | .hbm, ⟨99, _⟩ => ⟨S500000, .i32⟩
  | .hbm, ⟨100, _⟩ => ⟨S500000, .i1⟩
  | .hbm, ⟨101, _⟩ => ⟨S_, .i32⟩
  | .hbm, ⟨102, _⟩ => ⟨S500000, .i32⟩
  | .hbm, ⟨103, _⟩ => ⟨S500000, .i32⟩
  | .hbm, ⟨104, _⟩ => ⟨S500000, .i32⟩
  | .hbm, ⟨105, _⟩ => ⟨S500000x1, .i32⟩
  | .hbm, ⟨106, _⟩ => ⟨S500000x128, .f32⟩
  | .hbm, ⟨107, _⟩ => ⟨S_, .i32⟩
  | .hbm, ⟨108, _⟩ => ⟨S500000, .i32⟩
  | .hbm, ⟨109, _⟩ => ⟨S500000, .i1⟩
  | .hbm, ⟨110, _⟩ => ⟨S_, .i32⟩
  | .hbm, ⟨111, _⟩ => ⟨S500000, .i32⟩
  | .hbm, ⟨112, _⟩ => ⟨S500000, .i32⟩
  | .hbm, ⟨113, _⟩ => ⟨S500000, .i32⟩
  | .hbm, ⟨114, _⟩ => ⟨S500000x1, .i32⟩
  | .hbm, ⟨115, _⟩ => ⟨S500000x128, .f32⟩
  | .hbm, ⟨116, _⟩ => ⟨S500000x256, .f32⟩
  | .hbm, ⟨117, _⟩ => ⟨S1x128, .f32⟩
  | .hbm, ⟨118, _⟩ => ⟨S1x1, .f32⟩
  | .hbm, ⟨119, _⟩ => ⟨S500000x1, .f32⟩
  | .hbm, ⟨120, _⟩ => ⟨S500000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x256, .f32⟩
  | .local _ .vmem, ⟨11, _⟩ => ⟨S5000x256, .f32⟩
  | .local _ .vmem, ⟨12, _⟩ => ⟨S256x128, .f32⟩
  | .local _ .vmem, ⟨13, _⟩ => ⟨S1x128, .f32⟩
  | .local _ .vmem, ⟨14, _⟩ => ⟨S128x1, .f32⟩
  | .local _ .vmem, ⟨15, _⟩ => ⟨S1x1, .f32⟩
  | .local _ .vmem, ⟨16, _⟩ => ⟨S5000x1, .f32⟩
  | .local _ .vmem, ⟨17, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_12 : Ref sig .tc := ⟨.hbm, 98, rfl⟩
abbrev main_v69 : Ref sig .tc := ⟨.hbm, 99, rfl⟩
abbrev main_v70 : Ref sig .tc := ⟨.hbm, 100, rfl⟩
abbrev main_c_13 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_14 : Ref sig .tc := ⟨.hbm, 107, rfl⟩
abbrev main_v76 : Ref sig .tc := ⟨.hbm, 108, rfl⟩
abbrev main_v77 : Ref sig .tc := ⟨.hbm, 109, rfl⟩
abbrev main_c_15 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x256_d1 : Shape.Concatenates [S500000x128, S500000x128] S500000x256 1
  shapeCasts_S128_S1x128 : S128.ShapeCasts S1x128
  shapeCasts_S1_S1x1 : S1.ShapeCasts S1x1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S500000x1_S500000 : S500000x1.ShapeCasts S500000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x128_S500000x1_S500000x128_1_0_n_n_0_1_1128_wf : GatherDims.WF S100000x128 S500000x1 S500000x128 [1] [0] [] [0] [] 1 ![1, 128]
  dot_S5000x256_S256x128_S5000x128_1_0_0_1_n_n_wf : DotDims.WF S5000x256 S256x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S500000x256.size a
  hwx2_0 : ∀ i : grid2.Coords, EltTy.bits .f32 = 32 ∨ (Rect.block (s := S500000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S128x1.size a
  hwx2_3 : ∀ i : grid2.Coords, EltTy.bits .f32 = 32 ∨ (Rect.block (s := S128x1) S128x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S500000x1.size a
  hwx2_5 : ∀ i : grid2.Coords, EltTy.bits .f32 = 32 ∨ (Rect.block (s := S500000x1) S5000x1.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v83) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v84) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v85) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v86) S5000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S2x500000 : Shape := ⟨2, ![2, 500000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S500000x256 : Shape := ⟨2, ![500000, 256]⟩
abbrev S1x1 : Shape := ⟨2, ![1, 1]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x1600000, .i32⟩
  | 2 => ⟨S2x500000, .i32⟩
  | 3 => ⟨S128x128, .f32⟩
  | 4 => ⟨S128, .f32⟩
  | 5 => ⟨S128x128, .f32⟩
  | 6 => ⟨S128, .f32⟩
  | 7 => ⟨S256x128, .f32⟩
  | 8 => ⟨S128, .f32⟩
  | 9 => ⟨S128x1, .f32⟩
  | 10 => ⟨S1, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x128, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x128, .f32⟩
  | 84 => ⟨S1700000x1, .f32⟩
  | 85 => ⟨S1700000x128, .f32⟩
  | 86 => ⟨S1700000x128, .f32⟩
  | 87 => ⟨S_, .f32⟩
  | 88 => ⟨S100000x128, .f32⟩
  | 89 => ⟨S1700000x1, .i32⟩
  | 90 => ⟨S100000x128, .f32⟩
  | 91 => ⟨S1x128, .f32⟩
  | 92 => ⟨S100000x128, .f32⟩
  | 93 => ⟨S100000x128, .f32⟩
  | 94 => ⟨S1x500000, .i32⟩
  | 95 => ⟨S500000, .i32⟩
  | 96 => ⟨S1x500000, .i32⟩
  | 97 => ⟨S500000, .i32⟩
  | 98 => ⟨S_, .i32⟩
  | 99 => ⟨S500000, .i32⟩
  | 100 => ⟨S500000, .i1⟩
  | 101 => ⟨S_, .i32⟩
  | 102 => ⟨S500000, .i32⟩
  | 103 => ⟨S500000, .i32⟩
  | 104 => ⟨S500000, .i32⟩
  | 105 => ⟨S500000x1, .i32⟩
  | 106 => ⟨S500000x128, .f32⟩
  | 107 => ⟨S_, .i32⟩
  | 108 => ⟨S500000, .i32⟩
  | 109 => ⟨S500000, .i1⟩
  | 110 => ⟨S_, .i32⟩
  | 111 => ⟨S500000, .i32⟩
  | 112 => ⟨S500000, .i32⟩
  | 113 => ⟨S500000, .i32⟩
  | 114 => ⟨S500000x1, .i32⟩
  | 115 => ⟨S500000x128, .f32⟩
  | 116 => ⟨S500000x256, .f32⟩
  | 117 => ⟨S500000x128, .f32⟩
  | 118 => ⟨S1x128, .f32⟩
  | 119 => ⟨S500000x128, .f32⟩
  | 120 => ⟨S500000x128, .f32⟩
  | 121 => ⟨S_, .f32⟩
  | 122 => ⟨S500000x128, .f32⟩
  | 123 => ⟨S500000x128, .f32⟩
  | 124 => ⟨S500000x1, .f32⟩
  | 125 => ⟨S1x1, .f32⟩
  | 126 => ⟨S500000x1, .f32⟩
  | 127 => ⟨S500000x1, .f32⟩
  | _ => ⟨S100000x128, .f32⟩

abbrev hbmTy0_1 (i : Nat) : BufTy := match i % 128 with
  | 0 => ⟨S500000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_12 : Ref sig .tc := ⟨.hbm, 98, rfl⟩
abbrev main_v69 : Ref sig .tc := ⟨.hbm, 99, rfl⟩
abbrev main_v70 : Ref sig .tc := ⟨.hbm, 100, rfl⟩
abbrev main_c_13 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_14 : Ref sig .tc := ⟨.hbm, 107, rfl⟩
abbrev main_v76 : Ref sig .tc := ⟨.hbm, 108, rfl⟩
abbrev main_v77 : Ref sig .tc := ⟨.hbm, 109, rfl⟩
abbrev main_c_15 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_call2_cst : Ref sig .tc := ⟨.hbm, 121, rfl⟩
abbrev main_call2_v0 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x256_d1 : Shape.Concatenates [S500000x128, S500000x128] S500000x256 1
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x128_S500000x1_S500000x128_1_0_n_n_0_1_1128_wf : GatherDims.WF S100000x128 S500000x1 S500000x128 [1] [0] [] [0] [] 1 ![1, 128]
  dot_S500000x256_S256x128_S500000x128_1_0_0_1_n_n_wf : DotDims.WF S500000x256 S256x128 S500000x128 [1] [0] [0] [1] [] []
  dot_S500000x128_S128x1_S500000x1_1_0_0_1_n_n_wf : DotDims.WF S500000x128 S128x1 S500000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.MatmulAt.lean ====
/-
  The kernel's matrix products read at an index, over the extended reals.

  Each of the three kernel bodies multiplies a block of 5000 rows by a whole weight matrix on the MXU, into a zero
  accumulator: [5000, 128] × [128, 128] (both graph-convolution layers), [5000, 256] × [256, 128] and [5000, 128] × [128, 1]
  (the two layers of the pair scorer). At the ideal instance such a product is the plain sum of products over the one
  contracted axis. Here that sum is re-indexed from the dimension record's own contraction index to `Fin K`, and the two
  operands' indices are written by their coordinates: the left operand at (row, k), the right at (k, column). That is the
  form in which a block's product can be set against the whole-array product of the reference, row by row.
-/
import proofs.«178651_j5016521801943_1_alg».proof.Proof.Gen.KernelIdeal
import Idealize.ShloMosaic.Lib.ValueIdx
import Idealize.ShloMosaic.PureOps.Ideal.Laws

noncomputable section

open scoped BigOperators

namespace Cert.KernelIdeal.MatmulAt

open Cert.KernelIdeal Cert.KernelIdeal.Gen Idealize.ShloMosaic Idealize.ShloMosaic.ValueIdx

/-! ## `dot_S5000x128_S128x128_S5000x128_1_0_0_1_n_n`: [5000, 128] × [128, 128], one contracted axis of extent 128 -/

/-- The left operand is read on its row axis at the output's row. -/
theorem lhs_mm128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and on its column axis at the contraction coordinate. -/
theorem lhs_mm128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand is read on its row axis at the contraction coordinate … -/
theorem rhs_mm128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and on its column axis at the output's column. -/
theorem rhs_mm128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Over the extended reals the product into a zero accumulator, at row `i 0` and column `i 1`, is the sum over the
    contracted coordinate `k` of the left operand's entry (row, k) times the right operand's entry (k, column). -/
theorem matmul_mm128_apply {φ₁ φ₂ : FTy} (l : FVec Ideal S5000x128 φ₁) (r : FVec Ideal S128x128 φ₂) (i : S5000x128.Idx) :
    FloatOps.matmul dot_S5000x128_S128x128_S5000x128_1_0_0_1_n_n none l r (constant S5000x128 .f32 0x00000000#32) i
      = ∑ k : Fin 128, l (ix2 (i 0) k) * r (ix2 k (i 1)) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = ix2 (i 0) k := funext fun a => Fin.ext (by
    match a with
    | ⟨0, _⟩ => exact lhs_mm128_0 _ _
    | ⟨1, _⟩ => exact (lhs_mm128_1 _ _).trans hk)
  have er : dot_S5000x128_S128x128_S5000x128_1_0_0_1_n_n.rhsIdx i ((ValueIdx.contrEquiv1 dot_S5000x128_S128x128_S5000x128_1_0_0_1_n_n 128 rfl rfl).symm k) = ix2 k (i 1) := funext fun a => Fin.ext (by
    match a with
    | ⟨0, _⟩ => exact (rhs_mm128_0 _ _).trans hk
    | ⟨1, _⟩ => exact rhs_mm128_1 _ _)
  exact congrArg₂ (· * ·) (congrArg l el) (congrArg r er)

/-! ## `dot_S5000x256_S256x128_S5000x128_1_0_0_1_n_n`: [5000, 256] × [256, 128], one contracted axis of extent 256 -/

/-- The left operand is read on its row axis at the output's row. -/
theorem lhs_mm256_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- … and on its column axis at the contraction coordinate. -/
theorem lhs_mm256_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- The right operand is read on its row axis at the contraction coordinate … -/
theorem rhs_mm256_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
/-- … and on its column axis at the output's column. -/
theorem rhs_mm256_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Over the extended reals the product into a zero accumulator, at row `i 0` and column `i 1`, is the sum over the
    contracted coordinate `k` of the left operand's entry (row, k) times the right operand's entry (k, column). -/
theorem matmul_mm256_apply {φ₁ φ₂ : FTy} (l : FVec Ideal S5000x256 φ₁) (r : FVec Ideal S256x128 φ₂) (i : S5000x128.Idx) :
    FloatOps.matmul dot_S5000x256_S256x128_S5000x128_1_0_0_1_n_n none l r (constant S5000x128 .f32 0x00000000#32) i
      = ∑ k : Fin 256, l (ix2 (i 0) k) * r (ix2 k (i 1)) := by
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx i ((ValueIdx.contrEquiv1 dot_S5000x256_S256x128_S5000x128_1_0_0_1_n_n 256 rfl rfl).symm k) = ix2 (i 0) k := funext fun a => Fin.ext (by
    match a with
    | ⟨0, _⟩ => exact lhs_mm256_0 _ _
    | ⟨1, _⟩ => exact (lhs_mm256_1 _ _).trans hk)
  have er : dot_S5000x256_S256x128_S5000x128_1_0_0_1_n_n.rhsIdx i ((ValueIdx.contrEquiv1 dot_S5000x256_S256x128_S5000x128_1_0_0_1_n_n 256 rfl rfl).symm k) = ix2 k (i 1) := funext fun a => Fin.ext (by
    match a with
    | ⟨0, _⟩ => exact (rhs_mm256_0 _ _).trans hk
    | ⟨1, _⟩ => exact rhs_mm256_1 _ _)
  exact congrArg₂ (· * ·) (congrArg l el) (congrArg r er)

/-! ## `dot_S5000x128_S128x1_S5000x1_1_0_0_1_n_n`: [5000, 128] × [128, 1], one contracted axis of extent 128 -/

/-- The left operand is read on its row axis at the output's row. -/
theorem lhs_mm1_0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
/-- … and on its column axis at the contraction coordinate. -/
theorem lhs_mm1_1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
/-- The right operand is read on its row axis at the contraction coordinate … -/
theorem rhs_mm1_0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
/-- … and on its column axis at the output's column. -/
theorem rhs_mm1_1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- Over the extended reals the product into a zero accumulator, at row `i 0` and column `i 1`, is the sum over the
    contracted coordinate `k` of the left operand's entry (row, k) times the right operand's entry (k, column). -/
theorem matmul_mm1_apply {φ₁ φ₂ : FTy} (l : FVec Ideal S5000x128 φ₁) (r : FVec Ideal S128x1 φ₂) (i : S5000x1.Idx) :
    FloatOps.matmul dot_S5000x128_S128x1_S5000x1_1_0_0_1_n_n none l r (constant S5000x1 .f32 0x00000000#32) i
      = ∑ k : Fin 128, l (ix2 (i 0) k) * r (ix2 k (i 1)) := by
  rw [Ideal.matmul_constant_zero_apply, ← Equiv.sum_comp (ValueIdx.contrEquiv1 dot_S5000x128_S128x1_S5000x1_1_0_0_1_n_n 128 rfl rfl).symm]
  refine Finset.sum_congr rfl fun k _ => ?_
  have hk := ValueIdx.contrEquiv1_symm_val dot_S5000x128_S128x1_S5000x1_1_0_0_1_n_n 128 rfl rfl k
  have el : dot_S5000x128_S128x1_S5000x1_1_0_0_1_n_n.lhsIdx i ((ValueIdx.contrEquiv1 dot_S5000x128_S128x1_S5000x1_1_0_0_1_n_n 128 rfl rfl).symm k) = ix2 (i 0) k := funext fun a => Fin.ext (by
    match a with
    | ⟨0, _⟩ => exact lhs_mm1_0 _ _
    | ⟨1, _⟩ => exact (lhs_mm1_1 _ _).trans hk)
  have er : dot_S5000x128_S128x1_S5000x1_1_0_0_1_n_n.rhsIdx i ((ValueIdx.contrEquiv1 dot_S5000x128_S128x1_S5000x1_1_0_0_1_n_n 128 rfl rfl).symm k) = ix2 k (i 1) := funext fun a => Fin.ext (by
    match a with
    | ⟨0, _⟩ => exact (rhs_mm1_0 _ _).trans hk
    | ⟨1, _⟩ => exact rhs_mm1_1 _ _)
  exact congrArg₂ (· * ·) (congrArg l el) (congrArg r er)

end Cert.KernelIdeal.MatmulAt

end
-- ==== Proof.Linear.lean ====
/-
  The two graph-convolution linear layers as whole-array functions.

  Regions 0 and 1 of @main each run the same body over a grid of 20 points: point `t` loads rows 5000·t … 5000·t + 4999 of
  the node-feature array and the whole 128 × 128 weight matrix, multiplies them, and stores the 5000 × 128 product as rows
  5000·t … of the result. The weight window sits at block (0, 0) at every point and the row windows of operand and result move
  together, so entry (r, q) of the result array is  ∑ k, A (r, k) · W (k, q)  of the arrays the region finds on entry: the blocks'
  products are the restrictions of ONE whole-array product (`mmRows`), and the 20 blocks cover every row.
  Everything here is stated at an arbitrary entry contents `V`, as the per-region halves of the frame are.
-/
import proofs.«178651_j5016521801943_1_alg».proof.Proof.Gen.KernelIdeal.Frame
import proofs.«178651_j5016521801943_1_alg».proof.Proof.MatmulAt
import Idealize.ShloMosaic.Lib.Pipeline.Value

set_option maxRecDepth 16384

noncomputable section

open scoped BigOperators

namespace Cert.KernelIdeal.Linear

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

/-- Rows times weights: entry (r, q) is the sum over k of A (r, k) · W (k, q), on the extended reals. -/
def mmRows (A : S100000x128.Idx → EReal) (W : S128x128.Idx → EReal) : S100000x128.Idx → EReal :=
  fun i => ∑ k : Fin 128, A (ix2 (i 0) k) * W (ix2 k (i 1))

theorem hz : (![0, 0] : Fin 2 → Nat) = fun _ => 0 := funext fun a => by fin_cases a <;> rfl

variable (V : (c : Dev nD) → (b : Ref sig .tc) → Buf (Elt Ideal) ((c : Thread nD τ).loc b))

/-! ## Region 0: the first layer's product -/

/-- The body's stored value at (p, q) of its block: the sum over k of the loaded rows' (p, k) times the weights' (k, q)
    (the change of format before the product is the identity on the extended reals). -/
theorem pay0_apply (x : Vec Ideal S5000x128 .f32) (w : Vec Ideal S128x128 .f32) (j : S5000x128.Idx) :
    k0_pay1 x w j = ∑ k : Fin 128, x (ix2 (j 0) k) * w (ix2 k (j 1)) := by
  unfold k0_pay1
  exact MatmulAt.matmul_mm128_apply _ _ j

/-- The printed index maps over the grid: operand and result rows move together, block t at point t; the weights stay at
    block (0, 0); no window moves along the columns. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row of the result is some point's. -/
theorem idx_onto0 : ∀ q : Fin 20, ∃ t : Fin cfg0.N, t.val = q.val :=
  (by decide +kernel : ∀ q : Fin 20, ∃ t : Fin grid0.N, t.val = q.val)

/-- What point t writes back is block t of the whole-array product of the arrays the region finds. -/
theorem flushed0_eq (c : Dev nD) (t : Fin cfg0.N) :
    (dat0 V c).flushed 2 t = ((cfg0.win 2).blk t).view.read (Elt Ideal) (mmRows (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts0 t
  funext j
  refine (pay0_apply (iblk0 V c 0 t) (iblk0 V c 1 t) j).trans ?_
  show _ = mmRows (V c main_arg0) (V c main_arg3) (((cfg0.win 2).blk t).view.emb j)
  unfold mmRows
  refine Finset.sum_congr rfl fun k _ => ?_
  have h0 : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : iblk0 V c 1 t (ix2 k (j 1)) = V c main_arg3 (ix2 k ((((cfg0.win 2).blk t).view.emb j) 1)) := by
    show V c main_arg3 (((cfg0.win 1).blk t).view.emb (ix2 k (j 1))) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact congrArg₂ (fun a b : EReal => a * b) h0 h1

/-- An index of the result array is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The 20 blocks cover the array: row r lies in the block of point r / 5000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto0 ⟨(i 0).val / 5000, by omega⟩
  have ht' : t.val = (i 0).val / 5000 := ht
  obtain ⟨e0, e1, e2, e3, e4, e5⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE ARRAY after region 0: the whole-array product of the node features and the first layer's weights as the region finds them. -/
theorem array0 (c : Dev nD) : (dat0 V c).arrAt 2 cfg0.N = mmRows (V c main_arg0) (V c main_arg3) :=
  (dat0 V c).arrAt_eq_of_cover 2 (mmRows (V c main_arg0) (V c main_arg3)) (fun t _ => flushed0_eq V c t) (cover0)

/-! ## Region 1: the second layer's product -/

/-- The second layer's body stores the same product (its reshape of the loaded rows to their own shape is the identity). -/
theorem pay1_apply (x : Vec Ideal S5000x128 .f32) (w : Vec Ideal S128x128 .f32) (j : S5000x128.Idx) :
    k1_pay1 x w j = ∑ k : Fin 128, x (ix2 (j 0) k) * w (ix2 k (j 1)) := by
  unfold k1_pay1
  rw [shapeCast_self]
  exact MatmulAt.matmul_mm128_apply _ _ j

/-- The printed index maps over the grid, as in region 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every block row of the result is some point's. -/
theorem idx_onto1 : ∀ q : Fin 20, ∃ t : Fin cfg1.N, t.val = q.val :=
  (by decide +kernel : ∀ q : Fin 20, ∃ t : Fin grid1.N, t.val = q.val)

/-- What point t writes back is block t of the whole-array product of the arrays the region finds. -/
theorem flushed1_eq (c : Dev nD) (t : Fin cfg1.N) :
    (dat1 V c).flushed 2 t = ((cfg1.win 2).blk t).view.read (Elt Ideal) (mmRows (V c main_v47) (V c main_arg5)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨e0, e1, e2, e3, e4, e5⟩ := idx_facts1 t
  funext j
  refine (pay1_apply (iblk1 V c 0 t) (iblk1 V c 1 t) j).trans ?_
  show _ = mmRows (V c main_v47) (V c main_arg5) (((cfg1.win 2).blk t).view.emb j)
  unfold mmRows
  refine Finset.sum_congr rfl fun k _ => ?_
  have h0 : iblk1 V c 0 t (ix2 (j 0) k) = V c main_v47 (ix2 ((((cfg1.win 2).blk t).view.emb j) 0) k) := by
    show V c main_v47 (((cfg1.win 0).blk t).view.emb (ix2 (j 0) k)) = _
    refine congrArg (V c main_v47) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have h1 : iblk1 V c 1 t (ix2 k (j 1)) = V c main_arg5 (ix2 k ((((cfg1.win 2).blk t).view.emb j) 1)) := by
    show V c main_arg5 (((cfg1.win 1).blk t).view.emb (ix2 k (j 1))) = _
    refine congrArg (V c main_arg5) (funext fun a => Fin.ext ?_)
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega
  exact congrArg₂ (fun a b : EReal => a * b) h0 h1

/-- An index of the result array is in point t's block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v48).slice (win1_2.rect t)).set ↔ _
  rw [View.set_slice_whole, Rect.mem_set_unit]
  exact Iff.rfl

/-- The 20 blocks cover the array: row r lies in the block of point r / 5000. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto1 ⟨(i 0).val / 5000, by omega⟩
  have ht' : t.val = (i 0).val / 5000 := ht
  obtain ⟨e0, e1, e2, e3, e4, e5⟩ := idx_facts1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE ARRAY after region 1: the whole-array product of the hidden features and the second layer's weights as the region finds them. -/
theorem array1 (c : Dev nD) : (dat1 V c).arrAt 2 cfg1.N = mmRows (V c main_v47) (V c main_arg5) :=
  (dat1 V c).arrAt_eq_of_cover 2 (mmRows (V c main_v47) (V c main_arg5)) (fun t _ => flushed1_eq V c t) (cover1)

end Cert.KernelIdeal.Linear

end
-- ==== Proof.Scorer.lean ====
/-
  The pair scorer as a whole-array function.

  Region 2 of @main runs one body over a grid of 100 points. Point t loads rows 5000·t … 5000·t + 4999 of the pair-feature array
  (each row the two gathered node embeddings side by side, 256 numbers) and, whole, the first weight matrix (256 × 128), the first bias
  as a 1 × 128 row, the second weight matrix (128 × 1) and the second bias as a 1 × 1 array; it stores, for each of its 5000 rows r,

      ∑ q, max (∑ k, E (r, k) · W₁ (k, q) + b₁ (0, q)) 0 · W₂ (q, 0) + b₂ (0, 0).

  Row r of the result depends on row r of the features only, so the blocks' results are the restrictions of ONE whole-array function
  (`mlpRows`), and the 100 blocks cover every row. The zero the hidden layer is clamped at is kept as the word the body splats: the
  reference clamps at the same word. Everything is stated at an arbitrary entry contents `V`, as the per-region halves of the frame are.
-/
import proofs.«178651_j5016521801943_1_alg».proof.Proof.Gen.KernelIdeal.Frame
import proofs.«178651_j5016521801943_1_alg».proof.Proof.MatmulAt
import Idealize.ShloMosaic.Lib.Pipeline.Value
import Idealize.ShloMosaic.Lib.ValueLayout

set_option maxRecDepth 16384

noncomputable section

open scoped BigOperators

namespace Cert.KernelIdeal.Scorer

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

/-- The two-layer scorer of whole arrays: for pair row r (its one column), the clamped hidden layer times the second weights, plus the
    second bias. -/
def mlpRows (E : S500000x256.Idx → EReal) (W₁ : S256x128.Idx → EReal) (b₁ : S1x128.Idx → EReal) (W₂ : S128x1.Idx → EReal)
    (b₂ : S1x1.Idx → EReal) : S500000x1.Idx → EReal :=
  fun i => (∑ q : Fin 128, max ((∑ k : Fin 256, E (ix2 (i 0) k) * W₁ (ix2 k q)) + b₁ (ix2 0 q)) (Ideal.ofBits .f32 0x00000000#32)
      * W₂ (ix2 q (i 1))) + b₂ (ix2 0 0)

theorem hz : (![0, 0] : Fin 2 → Nat) = fun _ => 0 := funext fun a => by fin_cases a <;> rfl

/-! ## The body's stored value at an index -/

/-- The first bias row, broadcast over the block's rows, read at (p, q): the row's entry q. -/
theorem bias1_apply (b : Vec Ideal S1x128 .f32) (p : Fin 5000) (q : Fin 128) :
    broadcastTo S5000x128 (shapeCast S1x128 b shapeCasts_S1x128_S1x128) broadcasts_S1x128_S5000x128 (ix2 p q) = b (ix2 0 q) := by
  rw [shapeCast_self]
  exact broadcastTo_apply b broadcasts_S1x128_S5000x128 (ix2 p q) (ix2 0 q) (fun a => by
    match a with
    | ⟨0, _⟩ => rfl
    | ⟨1, _⟩ => rfl)

/-- The second bias, a 1 × 1 array broadcast over the block's rows, read at any index: its one entry. -/
theorem bias2_apply (b : Vec Ideal S1x1 .f32) (j : S5000x1.Idx) :
    broadcastTo S5000x1 (shapeCast S1x1 b shapeCasts_S1x1_S1x1) broadcasts_S1x1_S5000x1 j = b (ix2 0 0) := by
  rw [shapeCast_self]
  exact broadcastTo_apply b broadcasts_S1x1_S5000x1 j (ix2 0 0) (fun a => by
    match a with
    | ⟨0, _⟩ => rfl
    | ⟨1, _⟩ => rfl)

/-- The hidden layer before the clamp, at (p, q): row p of the features against column q of the first weights, plus the bias. -/
theorem hidden_apply (x : Vec Ideal S5000x256 .f32) (w₁ : Vec Ideal S256x128 .f32) (b : Vec Ideal S1x128 .f32) (p : Fin 5000) (q : Fin 128) :
    addf (F := Ideal) (matmul (F := Ideal) dot_S5000x256_S256x128_S5000x128_1_0_0_1_n_n none
        (truncf .bf16 (shapeCast S5000x256 x shapeCasts_S5000x256_S5000x256) bitsLt_bf16_f32) (truncf .bf16 w₁ bitsLt_bf16_f32)
        (constant (F := Ideal) S5000x128 .f32 0x00000000#32))
      (broadcastTo S5000x128 (shapeCast S1x128 b shapeCasts_S1x128_S1x128) broadcasts_S1x128_S5000x128) (ix2 p q)
      = (∑ k : Fin 256, x (ix2 p k) * w₁ (ix2 k q)) + b (ix2 0 q) := by
  rw [addf_apply, bias1_apply, shapeCast_self]
  exact congrArg (· + b (ix2 0 q)) (MatmulAt.matmul_mm256_apply _ _ (ix2 p q))

/-- The body's stored value at row p of its block (its one column). -/
theorem pay2_apply (x : Vec Ideal S5000x256 .f32) (w₁ : Vec Ideal S256x128 .f32) (b₁ : Vec Ideal S1x128 .f32) (w₂ : Vec Ideal S128x1 .f32)
    (b₂ : Vec Ideal S1x1 .f32) (j : S5000x1.Idx) :
    k2_pay1 x w₁ b₁ w₂ b₂ j
      = (∑ q : Fin 128, max ((∑ k : Fin 256, x (ix2 (j 0) k) * w₁ (ix2 k q)) + b₁ (ix2 0 q)) (Ideal.ofBits .f32 0x00000000#32)
          * w₂ (ix2 q (j 1))) + b₂ (ix2 0 0) := by
  unfold k2_pay1
  rw [addf_apply, bias2_apply]
  refine congrArg (· + b₂ (ix2 0 0)) ?_
  refine (MatmulAt.matmul_mm1_apply _ _ j).trans ?_
  refine Finset.sum_congr rfl fun q _ => ?_
  refine congrArg (· * w₂ (ix2 q (j 1))) ?_
  exact congrArg₂ (fun a b : EReal => max a b) (hidden_apply x w₁ b₁ (j 0) q) rfl

/-! ## Region 2: from blocks to the array -/

variable (V : (c : Dev nD) → (b : Ref sig .tc) → Buf (Elt Ideal) ((c : Thread nD τ).loc b))

/-- The printed index maps over the grid: feature rows and result rows move together, block t at point t; the weights and
    biases stay at block (0, 0); no window moves along the columns. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Every block row of the result is some point's. -/
theorem idx_onto2 : ∀ q : Fin 100, ∃ t : Fin cfg2.N, t.val = q.val :=
  (by decide +kernel : ∀ q : Fin 100, ∃ t : Fin grid2.N, t.val = q.val)

/-- What point t writes back is block t of the whole-array scorer of the arrays the region finds. -/
theorem flushed2_eq (c : Dev nD) (t : Fin cfg2.N) :
    (dat2 V c).flushed 5 t = ((cfg2.win 5).blk t).view.read (Elt Ideal)
      (mlpRows (V c main_v83) (V c main_arg7) (V c main_v84) (V c main_arg9) (V c main_v85)) := by
  show (cfg2.win 5).cut (grid2.coords t) ((dat2 V c).after 5 t) = _
  rw [after2_5]
  unfold out2_5
  rw [View.canon_unit_zero hz]
  simp only [View.ld_unit_zero (S := S5000x256) hz, View.ld_unit_zero (S := S256x128) hz, View.ld_unit_zero (S := S1x128) hz,
    View.ld_unit_zero (S := S128x1) hz, View.ld_unit_zero (S := S1x1) hz]
  obtain ⟨e00, e01, e10, e11, e20, e21, e30, e31, e40, e41, e50, e51⟩ := idx_facts2 t
  funext j
  refine (pay2_apply (iblk2 V c 0 t) (iblk2 V c 1 t) (iblk2 V c 2 t) (iblk2 V c 3 t) (iblk2 V c 4 t) j).trans ?_
  show _ = mlpRows (V c main_v83) (V c main_arg7) (V c main_v84) (V c main_arg9) (V c main_v85) (((cfg2.win 5).blk t).view.emb j)
  unfold mlpRows
  have hE : ∀ k : Fin 256, iblk2 V c 0 t (ix2 (j 0) k) = V c main_v83 (ix2 ((((cfg2.win 5).blk t).view.emb j) 0) k) := fun k => by
    show V c main_v83 (((cfg2.win 0).blk t).view.emb (ix2 (j 0) k)) = _
    refine congrArg (V c main_v83) (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 256 + 1 * k.val = k.val; omega
  have hW₁ : ∀ (k : Fin 256) (q : Fin 128), iblk2 V c 1 t (ix2 k q) = V c main_arg7 (ix2 k q) := fun k q => by
    show V c main_arg7 (((cfg2.win 1).blk t).view.emb (ix2 k q)) = _
    refine congrArg (V c main_arg7) (funext fun a => Fin.ext ?_)
    match a with
    | ⟨0, _⟩ => show win2_1.index t (0 : Fin 2) * 256 + 1 * k.val = k.val; omega
    | ⟨1, _⟩ => show win2_1.index t (1 : Fin 2) * 128 + 1 * q.val = q.val; omega
  have hb₁ : ∀ q : Fin 128, iblk2 V c 2 t (ix2 0 q) = V c main_v84 (ix2 0 q) := fun q => by
    show V c main_v84 (((cfg2.win 2).blk t).view.emb (ix2 0 q)) = _
    refine congrArg (V c main_v84) (funext fun a => Fin.ext ?_)
    match a with
    | ⟨0, _⟩ => show win2_2.index t (0 : Fin 2) * 1 + 1 * 0 = 0; omega
    | ⟨1, _⟩ => show win2_2.index t (1 : Fin 2) * 128 + 1 * q.val = q.val; omega
  have hW₂ : ∀ q : Fin 128, iblk2 V c 3 t (ix2 q (j 1)) = V c main_arg9 (ix2 q ((((cfg2.win 5).blk t).view.emb j) 1)) := fun q => by
    show V c main_arg9 (((cfg2.win 3).blk t).view.emb (ix2 q (j 1))) = _
    refine congrArg (V c main_arg9) (funext fun a => Fin.ext ?_)
    match a with
    | ⟨0, _⟩ => show win2_3.index t (0 : Fin 2) * 128 + 1 * q.val = q.val; omega
    | ⟨1, _⟩ => show win2_3.index t (1 : Fin 2) * 1 + 1 * (j 1).val = win2_5.index t (1 : Fin 2) * 1 + 1 * (j 1).val; omega
  have hb₂ : iblk2 V c 4 t (ix2 0 0) = V c main_v85 (ix2 0 0) := by
    show V c main_v85 (((cfg2.win 4).blk t).view.emb (ix2 0 0)) = _
    refine congrArg (V c main_v85) (funext fun a => Fin.ext ?_)
    match a with
    | ⟨0, _⟩ => show win2_4.index t (0 : Fin 2) * 1 + 1 * 0 = 0; omega
    | ⟨1, _⟩ => show win2_4.index t (1 : Fin 2) * 1 + 1 * 0 = 0; omega
  refine congrArg₂ (fun a b : EReal => a + b) (Finset.sum_congr rfl fun q _ => ?_) hb₂
  refine congrArg₂ (fun a b : EReal => a * b) ?_ (hW₂ q)
  refine congrArg₂ (fun a b : EReal => max a b)
    (congrArg₂ (fun a b : EReal => a + b) (Finset.sum_congr rfl fun k _ => ?_) (hb₁ q)) rfl
  exact congrArg₂ (fun a b : EReal => a * b) (hE k) (hW₁ k q)

/-- An index of the result array is in point t's block iff each coordinate is in the block's range on its axis. -/
theorem mem_blk2 (t : Fin cfg2.N) (i : S500000x1.Idx) :
    i ∈ ((cfg2.win 5).blk t).view.set ↔ ∀ a : Fin 2, win2_5.index t a * S5000x1.size a ≤ (i a).val ∧ (i a).val < win2_5.index t a * S5000x1.size a + S5000x1.size a := by
  show i ∈ ((View.whole main_v86).slice (win2_5.rect t)).set ↔ _
  rw [View.set_slice_whole, Rect.mem_set_unit]
  exact Iff.rfl

/-- The 100 blocks cover the array: row r lies in the block of point r / 5000. -/
theorem cover2 (i : S500000x1.Idx) : ∃ t : Fin cfg2.N, (cfg2.win 5).flush t = true ∧ i ∈ ((cfg2.win 5).blk t).view.set := by
  have hi0 : (i 0).val < 500000 := (i 0).isLt
  have hi1 : (i 1).val < 1 := (i 1).isLt
  obtain ⟨t, ht⟩ := idx_onto2 ⟨(i 0).val / 5000, by omega⟩
  have ht' : t.val = (i 0).val / 5000 := ht
  obtain ⟨e00, e01, e10, e11, e20, e21, e30, e31, e40, e41, e50, e51⟩ := idx_facts2 t
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 1 ≤ (i 1).val ∧ (i 1).val < win2_5.index t (1 : Fin 2) * 1 + 1; omega

/-- THE ARRAY after region 2: the whole-array scorer of the pair features, weights and biases as the region finds them. -/
theorem array2 (c : Dev nD) :
    (dat2 V c).arrAt 5 cfg2.N = mlpRows (V c main_v83) (V c main_arg7) (V c main_v84) (V c main_arg9) (V c main_v85) :=
  (dat2 V c).arrAt_eq_of_cover 5 (mlpRows (V c main_v83) (V c main_arg7) (V c main_v84) (V c main_arg9) (V c main_v85))
    (fun t _ => flushed2_eq V c t) (cover2)

end Cert.KernelIdeal.Scorer

end
-- ==== Proof.Bridge.lean ====
/-
  The kernel's whole-array functions are the reference's stages.

  The reference computes each of the three dense stages as one host product over whole arrays. Read at an index, the product of a
  100000 × 128 array by a 128 × 128 matrix is, at (r, q), the sum over k of the array's (r, k) times the matrix's (k, q): the
  rows-by-weights function the two linear-layer regions leave in their result arrays. The pair scorer of the reference is the same
  chain of operations as the third region's body, applied to whole arrays: a product by the first weights, the first bias broadcast
  along the rows, the clamp at zero (the same word on both sides), a product by the second weights, the second bias. Only the spelling
  of the indices and of the two biases differs: the kernel passes each bias reshaped to a row (a 1 × 128 array, a 1 × 1 array) where
  the reference broadcasts the vector, so the row's entry (0, q) is the vector's entry q.
-/
import proofs.«178651_j5016521801943_1_alg».proof.Proof.RefRead
import proofs.«178651_j5016521801943_1_alg».proof.Proof.Linear
import proofs.«178651_j5016521801943_1_alg».proof.Proof.Scorer

noncomputable section

open scoped BigOperators

namespace Cert.Bridge

open Idealize.ShloMosaic Idealize.ShloMosaic.ValueIdx
open Cert.ReferenceIdeal.ReadP

/-- Rows times weights is the reference's host product of the two arrays. -/
theorem mmRows_eq (A : Cert.KernelIdeal.S100000x128.Idx → EReal) (W : Cert.KernelIdeal.S128x128.Idx → EReal) :
    Cert.KernelIdeal.Linear.mmRows A W = val_main_v30 (F := Ideal) A W := by
  funext i
  rw [val_main_v30_apply]
  exact Finset.sum_congr rfl fun k _ => congrArg₂ (· * ·)
    (congrArg A (funext fun a => by match a with | ⟨0, _⟩ => rfl | ⟨1, _⟩ => rfl))
    (congrArg W (funext fun a => by match a with | ⟨0, _⟩ => rfl | ⟨1, _⟩ => rfl))

/-- The whole-array scorer, on the reference's pair features and with each bias a row whose entries are the bias vector's, is the
    reference's scorer stage. -/
theorem mlpRows_eq (x0 : Cert.KernelIdeal.S100000x128.Idx → EReal) (x1 : Cert.KernelIdeal.S2x1600000.Idx → BitVec 32)
    (x2 : Cert.KernelIdeal.S2x500000.Idx → BitVec 32) (x3 : Cert.KernelIdeal.S128x128.Idx → EReal) (x4 : Cert.KernelIdeal.S128.Idx → EReal)
    (x5 : Cert.KernelIdeal.S128x128.Idx → EReal) (x6 : Cert.KernelIdeal.S128.Idx → EReal) (x7 : Cert.KernelIdeal.S256x128.Idx → EReal)
    (x8 : Cert.KernelIdeal.S128.Idx → EReal) (x9 : Cert.KernelIdeal.S128x1.Idx → EReal) (x10 : Cert.KernelIdeal.S1.Idx → EReal)
    (b₁ : Cert.KernelIdeal.S1x128.Idx → EReal) (b₂ : Cert.KernelIdeal.S1x1.Idx → EReal)
    (hb₁ : ∀ q : Fin 128, b₁ (ix2 0 q) = x8 (ix1 q)) (hb₂ : b₂ (ix2 0 0) = x10 (ix1 0)) :
    Cert.KernelIdeal.Scorer.mlpRows (val_main_v83 (F := Ideal) x0 x1 x2 x3 x4 x5 x6) x7 b₁ x9 b₂
      = val_main_v92 (F := Ideal) x0 x1 x2 x3 x4 x5 x6 x7 x8 x9 x10 := by
  funext i
  unfold Cert.KernelIdeal.Scorer.mlpRows
  rw [val_main_v92_apply, val_main_v89_apply, val_main_v91_apply, val_main_v90_apply, Ideal.addf_def]
  refine congrArg₂ (fun a b : EReal => a + b) (Finset.sum_congr rfl fun q _ => ?_)
    (hb₂.trans (congrArg x10 (funext fun a => by match a with | ⟨0, _⟩ => rfl)))
  rw [val_main_v88_apply, val_main_v87_apply, val_main_v84_apply, val_main_v86_apply, val_main_v85_apply,
    val_main_call2_v0_apply, val_main_call2_cst_apply, Ideal.maximumf_def, Ideal.addf_def, Ideal.ofBits_def]
  refine congrArg₂ (fun a b : EReal => a * b) ?_ (congrArg x9 (funext fun a => by match a with | ⟨0, _⟩ => rfl | ⟨1, _⟩ => rfl))
  refine congrArg₂ (fun a b : EReal => max a b) (congrArg₂ (fun a b : EReal => a + b) (Finset.sum_congr rfl fun k _ => ?_) ?_) rfl
  · exact congrArg₂ (· * ·)
      (congrArg (val_main_v83 (F := Ideal) x0 x1 x2 x3 x4 x5 x6) (funext fun a => by match a with | ⟨0, _⟩ => rfl | ⟨1, _⟩ => rfl))
      (congrArg x7 (funext fun a => by match a with | ⟨0, _⟩ => rfl | ⟨1, _⟩ => rfl))
  · exact (hb₁ q).trans (congrArg x8 (funext fun a => by match a with | ⟨0, _⟩ => rfl))

end Cert.Bridge

end
-- ==== Proof.Chain.lean ====
/-
  The kernel's result, followed through @main.

  @main is ten segments: host operations up to the first layer's product, the first region, host operations (gather the product's rows
  along the edges, scale by the edge norm, scatter-add into the target nodes, add the bias, clamp), the second region, the same host
  operations again without the clamp, the gathers of the pair endpoints, the third region, one reshape. The frame names the buffers'
  contents at every boundary (`W0` … `W10`). Here each buffer a later segment reads is identified, at its boundary, with the stage the
  reference computes for the buffer of the same name:
  • a host stretch writes it: the stretch's operations, read off the fold, are the reference's operations on the same operands;
  • a region writes it: the region's array is the rows-by-weights product (or the scorer) of its entry arrays, which is the reference's host
    product of the same arrays;
  • nothing writes it between two boundaries: it keeps its contents.
  Both programs apply the same host operations, so no host operation is ever opened: the stages meet as terms. That part holds for any
  float family (first section), each stretch taking what the region before it left as a hypothesis; only the three regions' products are
  read as sums over the extended reals (second section).
-/
import proofs.«178651_j5016521801943_1_alg».proof.Proof.Gen.KernelIdeal.Frame
import proofs.«178651_j5016521801943_1_alg».proof.Proof.Bridge
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.ShloMosaic.ValueIdx
open Idealize.ShloMosaic.StableHlo
open Idealize.SL Idealize.SL.Sem
open Cert.ReferenceIdeal.ReadP

set_option quotPrecheck false

/-- Open the boundaries' folds down to the nearest region and read each operation's result off its own buffer, any other buffer
    through it. -/
local macro "read_fold" : tactic =>
  `(tactic| (dsimp only [W10, W8, W6, W5, W3, W2, W1, W0, hostOps0, hostOps0_1, hostOps0_2, hostOps1, hostOps1_1, hostOps2, hostOps3]
             after_results_simp))

/-! # The host stretches, for any float family -/

section AnyFamily

variable {F : FTy → Type} [FloatOps F]
variable (m : (ℓ : Loc nD τ sig) → Buf (Elt F) ℓ) (ρ : Dev nD → PrngReg) (c : Dev nD)

local notation "x₀" => m ((c : Thread nD τ).loc main_arg0)
local notation "x₁" => m ((c : Thread nD τ).loc main_arg1)
local notation "x₂" => m ((c : Thread nD τ).loc main_arg2)
local notation "x₃" => m ((c : Thread nD τ).loc main_arg3)
local notation "x₄" => m ((c : Thread nD τ).loc main_arg4)
local notation "x₅" => m ((c : Thread nD τ).loc main_arg5)
local notation "x₆" => m ((c : Thread nD τ).loc main_arg6)
local notation "x₇" => m ((c : Thread nD τ).loc main_arg7)
local notation "x₈" => m ((c : Thread nD τ).loc main_arg8)
local notation "x₉" => m ((c : Thread nD τ).loc main_arg9)
local notation "x₁₀" => m ((c : Thread nD τ).loc main_arg10)

/-! ## Up to region 0's entry: the edge lists with their self loops, the degree, the edge norm

The first stretch of @main is three lists of operations with boundaries of their own (`W1`, `W2`, `W3`): the edge lists and the degree's
pieces; the select of `rsqrt deg` where `deg > 0`; the two gathers of that vector along the edges and their product. Each is read against
the contents the one before left, taken as an arbitrary valuation `W`. The first list is read with the rewriting form of the reader,
which also opens the operands of a concatenate. -/

theorem W1_v3 : W1 m ρ c (Proc.devRef .tc main_v3) = val_main_v3 (F := F) x₁ := by
  dsimp only [W1, W0, hostOps0]; after_results; rfl
theorem W1_v6 : W1 m ρ c (Proc.devRef .tc main_v6) = val_main_v6 (F := F) x₁ := by
  dsimp only [W1, W0, hostOps0]; after_results; rfl
/-- Where the degree is positive. -/
theorem W1_v12 : W1 m ρ c (Proc.devRef .tc main_v12) = val_main_v12 (F := F) x₁ := by
  dsimp only [W1, W0, hostOps0]; after_results; rfl
/-- The degree's inverse square root. -/
theorem W1_v13 : W1 m ρ c (Proc.devRef .tc main_v13) = val_main_v13 (F := F) x₁ := by
  dsimp only [W1, W0, hostOps0]; after_results; rfl
theorem W1_cst_2 : W1 m ρ c (Proc.devRef .tc main_cst_2) = val_main_cst_2 (F := F) := by
  dsimp only [W1, W0, hostOps0]; after_results; rfl

theorem W2_v14 : W2 m ρ c (Proc.devRef .tc main_v14) = val_main_v14 (F := F) x₁ := by
  have h12 := W1_v12 m ρ c
  have h13 := W1_v13 m ρ c
  have hc := W1_cst_2 m ρ c
  dsimp only [W2, hostOps0_1]
  generalize W1 m ρ c = W at h12 h13 hc ⊢
  after_results_simp
  rw [h12, h13, hc]
  rfl
theorem W2_v3 : W2 m ρ c (Proc.devRef .tc main_v3) = val_main_v3 (F := F) x₁ := by
  have h := W1_v3 m ρ c
  dsimp only [W2, hostOps0_1]
  generalize W1 m ρ c = W at h ⊢
  after_results_simp
  exact h
theorem W2_v6 : W2 m ρ c (Proc.devRef .tc main_v6) = val_main_v6 (F := F) x₁ := by
  have h := W1_v6 m ρ c
  dsimp only [W2, hostOps0_1]
  generalize W1 m ρ c = W at h ⊢
  after_results_simp
  exact h

theorem W3_v3 : W3 m ρ c (Proc.devRef .tc main_v3) = val_main_v3 (F := F) x₁ := by
  have h := W2_v3 m ρ c
  dsimp only [W3, hostOps0_2]
  generalize W2 m ρ c = W at h ⊢
  after_results_simp
  exact h
theorem W3_v6 : W3 m ρ c (Proc.devRef .tc main_v6) = val_main_v6 (F := F) x₁ := by
  have h := W2_v6 m ρ c
  dsimp only [W3, hostOps0_2]
  generalize W2 m ρ c = W at h ⊢
  after_results_simp
  exact h
/-- The edge norm: the selected vector gathered at each edge's source and at its target, multiplied. -/
theorem W3_v29 : W3 m ρ c (Proc.devRef .tc main_v29) = val_main_v29 (F := F) x₁ := by
  have h14 := W2_v14 m ρ c
  have h3 := W2_v3 m ρ c
  have h6 := W2_v6 m ρ c
  dsimp only [W3, hostOps0_2]
  generalize W2 m ρ c = W at h14 h3 h6 ⊢
  after_results_simp
  rw [h14, h3, h6]
  rfl

/-! ### The arguments at region 0's entry: as launched -/

theorem W3_arg0 : W3 m ρ c (Proc.devRef .tc main_arg0) = x₀ := by read_fold <;> rfl
theorem W3_arg2 : W3 m ρ c (Proc.devRef .tc main_arg2) = x₂ := by read_fold <;> rfl
theorem W3_arg3 : W3 m ρ c (Proc.devRef .tc main_arg3) = x₃ := by read_fold <;> rfl
theorem W3_arg4 : W3 m ρ c (Proc.devRef .tc main_arg4) = x₄ := by read_fold <;> rfl
theorem W3_arg5 : W3 m ρ c (Proc.devRef .tc main_arg5) = x₅ := by read_fold <;> rfl
theorem W3_arg6 : W3 m ρ c (Proc.devRef .tc main_arg6) = x₆ := by read_fold <;> rfl
theorem W3_arg7 : W3 m ρ c (Proc.devRef .tc main_arg7) = x₇ := by read_fold <;> rfl
theorem W3_arg8 : W3 m ρ c (Proc.devRef .tc main_arg8) = x₈ := by read_fold <;> rfl
theorem W3_arg9 : W3 m ρ c (Proc.devRef .tc main_arg9) = x₉ := by read_fold <;> rfl
theorem W3_arg10 : W3 m ρ c (Proc.devRef .tc main_arg10) = x₁₀ := by read_fold <;> rfl

/-! ## Across region 0: every buffer that is not one of its arrays, as entered -/

theorem W4_v3 : W4 m ρ c (Proc.devRef .tc main_v3) = val_main_v3 (F := F) x₁ := (W4_of_ne m ρ c main_v3 (by decide)).trans (W3_v3 m ρ c)
theorem W4_v6 : W4 m ρ c (Proc.devRef .tc main_v6) = val_main_v6 (F := F) x₁ := (W4_of_ne m ρ c main_v6 (by decide)).trans (W3_v6 m ρ c)
theorem W4_v29 : W4 m ρ c (Proc.devRef .tc main_v29) = val_main_v29 (F := F) x₁ := (W4_of_ne m ρ c main_v29 (by decide)).trans (W3_v29 m ρ c)
theorem W4_arg2 : W4 m ρ c (Proc.devRef .tc main_arg2) = x₂ := (W4_of_ne m ρ c main_arg2 (by decide)).trans (W3_arg2 m ρ c)
theorem W4_arg4 : W4 m ρ c (Proc.devRef .tc main_arg4) = x₄ := (W4_of_ne m ρ c main_arg4 (by decide)).trans (W3_arg4 m ρ c)
theorem W4_arg5 : W4 m ρ c (Proc.devRef .tc main_arg5) = x₅ := (W4_of_ne m ρ c main_arg5 (by decide)).trans (W3_arg5 m ρ c)
theorem W4_arg6 : W4 m ρ c (Proc.devRef .tc main_arg6) = x₆ := (W4_of_ne m ρ c main_arg6 (by decide)).trans (W3_arg6 m ρ c)
theorem W4_arg7 : W4 m ρ c (Proc.devRef .tc main_arg7) = x₇ := (W4_of_ne m ρ c main_arg7 (by decide)).trans (W3_arg7 m ρ c)
theorem W4_arg8 : W4 m ρ c (Proc.devRef .tc main_arg8) = x₈ := (W4_of_ne m ρ c main_arg8 (by decide)).trans (W3_arg8 m ρ c)
theorem W4_arg9 : W4 m ρ c (Proc.devRef .tc main_arg9) = x₉ := (W4_of_ne m ρ c main_arg9 (by decide)).trans (W3_arg9 m ρ c)
theorem W4_arg10 : W4 m ρ c (Proc.devRef .tc main_arg10) = x₁₀ := (W4_of_ne m ρ c main_arg10 (by decide)).trans (W3_arg10 m ρ c)

/-! ## At region 1's entry: the first convolution's output, clamped (given the first layer's product) -/

theorem W6_v47 (h30 : W4 m ρ c (Proc.devRef .tc main_v30) = val_main_v30 (F := F) x₀ x₃) :
    W6 m ρ c (Proc.devRef .tc main_v47) = val_main_v47 (F := F) x₀ x₁ x₃ x₄ := by
  read_fold
  rw [h30, W4_v3 m ρ c, W4_v6 m ρ c, W4_v29 m ρ c, W4_arg4 m ρ c]
  rfl
theorem W6_v3 : W6 m ρ c (Proc.devRef .tc main_v3) = val_main_v3 (F := F) x₁ := by read_fold; exact W4_v3 m ρ c
theorem W6_v6 : W6 m ρ c (Proc.devRef .tc main_v6) = val_main_v6 (F := F) x₁ := by read_fold; exact W4_v6 m ρ c
theorem W6_v29 : W6 m ρ c (Proc.devRef .tc main_v29) = val_main_v29 (F := F) x₁ := by read_fold; exact W4_v29 m ρ c
theorem W6_arg2 : W6 m ρ c (Proc.devRef .tc main_arg2) = x₂ := by read_fold; exact W4_arg2 m ρ c
theorem W6_arg5 : W6 m ρ c (Proc.devRef .tc main_arg5) = x₅ := by read_fold; exact W4_arg5 m ρ c
theorem W6_arg6 : W6 m ρ c (Proc.devRef .tc main_arg6) = x₆ := by read_fold; exact W4_arg6 m ρ c
theorem W6_arg7 : W6 m ρ c (Proc.devRef .tc main_arg7) = x₇ := by read_fold; exact W4_arg7 m ρ c
theorem W6_arg8 : W6 m ρ c (Proc.devRef .tc main_arg8) = x₈ := by read_fold; exact W4_arg8 m ρ c
theorem W6_arg9 : W6 m ρ c (Proc.devRef .tc main_arg9) = x₉ := by read_fold; exact W4_arg9 m ρ c
theorem W6_arg10 : W6 m ρ c (Proc.devRef .tc main_arg10) = x₁₀ := by read_fold; exact W4_arg10 m ρ c

/-! ## Across region 1 -/

theorem W7_v3 : W7 m ρ c (Proc.devRef .tc main_v3) = val_main_v3 (F := F) x₁ := (W7_of_ne m ρ c main_v3 (by decide)).trans (W6_v3 m ρ c)
theorem W7_v6 : W7 m ρ c (Proc.devRef .tc main_v6) = val_main_v6 (F := F) x₁ := (W7_of_ne m ρ c main_v6 (by decide)).trans (W6_v6 m ρ c)
theorem W7_v29 : W7 m ρ c (Proc.devRef .tc main_v29) = val_main_v29 (F := F) x₁ := (W7_of_ne m ρ c main_v29 (by decide)).trans (W6_v29 m ρ c)
theorem W7_arg2 : W7 m ρ c (Proc.devRef .tc main_arg2) = x₂ := (W7_of_ne m ρ c main_arg2 (by decide)).trans (W6_arg2 m ρ c)
theorem W7_arg6 : W7 m ρ c (Proc.devRef .tc main_arg6) = x₆ := (W7_of_ne m ρ c main_arg6 (by decide)).trans (W6_arg6 m ρ c)
theorem W7_arg7 : W7 m ρ c (Proc.devRef .tc main_arg7) = x₇ := (W7_of_ne m ρ c main_arg7 (by decide)).trans (W6_arg7 m ρ c)
theorem W7_arg8 : W7 m ρ c (Proc.devRef .tc main_arg8) = x₈ := (W7_of_ne m ρ c main_arg8 (by decide)).trans (W6_arg8 m ρ c)
theorem W7_arg9 : W7 m ρ c (Proc.devRef .tc main_arg9) = x₉ := (W7_of_ne m ρ c main_arg9 (by decide)).trans (W6_arg9 m ρ c)
theorem W7_arg10 : W7 m ρ c (Proc.devRef .tc main_arg10) = x₁₀ := (W7_of_ne m ρ c main_arg10 (by decide)).trans (W6_arg10 m ρ c)

/-! ## At region 2's entry: the pair features (given the second layer's product), the weights, each bias reshaped to a row -/

/-- The third stretch's list cut before its concatenate: the first 41 operations end with the two gathers of the second convolution's
    output along the pairs. -/
theorem hostOps2_split : (hostOps2 : List (HloOp τ sig (Elt F))) = hostOps2.take 41 ++ hostOps2.drop 41 :=
  (List.take_append_drop 41 _).symm

/-- The second convolution's output gathered at each pair's first node (given the second layer's product). -/
theorem pre_v75 (h48 : W7 m ρ c (Proc.devRef .tc main_v48) = val_main_v48 (F := F) x₀ x₁ x₃ x₄ x₅) :
    after ((hostOps2 : List (HloOp τ sig (Elt F))).take 41) (W7 m ρ c) (Proc.devRef .tc main_v75)
      = val_main_v75 (F := F) x₀ x₁ x₂ x₃ x₄ x₅ x₆ := by
  simp only [hostOps2, List.take_succ_cons, List.take_zero]
  after_results_simp
  rw [h48, W7_v3 m ρ c, W7_v6 m ρ c, W7_v29 m ρ c, W7_arg6 m ρ c, W7_arg2 m ρ c]
  rfl

/-- … and at its second node. -/
theorem pre_v82 (h48 : W7 m ρ c (Proc.devRef .tc main_v48) = val_main_v48 (F := F) x₀ x₁ x₃ x₄ x₅) :
    after ((hostOps2 : List (HloOp τ sig (Elt F))).take 41) (W7 m ρ c) (Proc.devRef .tc main_v82)
      = val_main_v82 (F := F) x₀ x₁ x₂ x₃ x₄ x₅ x₆ := by
  simp only [hostOps2, List.take_succ_cons, List.take_zero]
  after_results_simp
  rw [h48, W7_v3 m ρ c, W7_v6 m ρ c, W7_v29 m ρ c, W7_arg6 m ρ c, W7_arg2 m ρ c]
  rfl

/-- The pair features: the two gathers side by side. The concatenate (and the two reshapes after it) is read over the contents the
    first 41 operations leave, taken as an arbitrary valuation. -/
theorem W8_v83 (h48 : W7 m ρ c (Proc.devRef .tc main_v48) = val_main_v48 (F := F) x₀ x₁ x₃ x₄ x₅) :
    W8 m ρ c (Proc.devRef .tc main_v83) = val_main_v83 (F := F) x₀ x₁ x₂ x₃ x₄ x₅ x₆ := by
  have h75 := pre_v75 m ρ c h48
  have h82 := pre_v82 m ρ c h48
  show after hostOps2 (W7 m ρ c) (Proc.devRef .tc main_v83) = _
  rw [hostOps2_split, StableHlo.after_append]
  generalize after ((hostOps2 : List (HloOp τ sig (Elt F))).take 41) (W7 m ρ c) = Wp at h75 h82 ⊢
  simp only [hostOps2, List.drop_succ_cons, List.drop_zero]
  after_results
  rw [h75, h82]
  rfl
theorem W8_arg7 : W8 m ρ c (Proc.devRef .tc main_arg7) = x₇ := by read_fold; exact W7_arg7 m ρ c
theorem W8_arg9 : W8 m ρ c (Proc.devRef .tc main_arg9) = x₉ := by read_fold; exact W7_arg9 m ρ c
/-- The first bias as a 1 × 128 row: entry (0, q) is the vector's entry q. -/
theorem W8_v84 (q : Fin 128) : (W8 m ρ c (Proc.devRef .tc main_v84) : (⟨S1x128, .f32⟩ : BufTy).Contents (Elt F)) (ix2 0 q)
    = (x₈ : (⟨S128, .f32⟩ : BufTy).Contents (Elt F)) (ix1 q) := by
  read_fold
  rw [W7_arg8 m ρ c]
  exact shapeCast_apply _ _ (ix2 0 q) (ix1 q) (by rw [Shape.rowMajor_val_one, Shape.rowMajor_val_two]; show q.val = 0 * 128 + q.val; omega)
/-- The second bias as a 1 × 1 array: its one entry is the vector's. -/
theorem W8_v85 : (W8 m ρ c (Proc.devRef .tc main_v85) : (⟨S1x1, .f32⟩ : BufTy).Contents (Elt F)) (ix2 0 0)
    = (x₁₀ : (⟨S1, .f32⟩ : BufTy).Contents (Elt F)) (ix1 0) := by
  read_fold
  rw [W7_arg10 m ρ c]
  exact shapeCast_apply _ _ (ix2 0 0) (ix1 0) (by rw [Shape.rowMajor_val_one, Shape.rowMajor_val_two]; rfl)

/-! ## The return: one reshape of the scorer's column (given the scorer's array) -/

theorem W10_v87 (h86 : W9 m ρ c (Proc.devRef .tc main_v86) = val_main_v92 (F := F) x₀ x₁ x₂ x₃ x₄ x₅ x₆ x₇ x₈ x₉ x₁₀) :
    W10 m ρ c (Proc.devRef .tc main_v87) = val_main_v93 (F := F) x₀ x₁ x₂ x₃ x₄ x₅ x₆ x₇ x₈ x₉ x₁₀ := by
  read_fold
  rw [h86]
  rfl

end AnyFamily

/-! # The regions, over the extended reals -/

section Regions

variable (m : (ℓ : Loc nD τ sig) → Buf (Elt Ideal) ℓ) (ρ : Dev nD → PrngReg) (c : Dev nD)

local notation "x₀" => m ((c : Thread nD τ).loc main_arg0)
local notation "x₁" => m ((c : Thread nD τ).loc main_arg1)
local notation "x₂" => m ((c : Thread nD τ).loc main_arg2)
local notation "x₃" => m ((c : Thread nD τ).loc main_arg3)
local notation "x₄" => m ((c : Thread nD τ).loc main_arg4)
local notation "x₅" => m ((c : Thread nD τ).loc main_arg5)
local notation "x₆" => m ((c : Thread nD τ).loc main_arg6)
local notation "x₇" => m ((c : Thread nD τ).loc main_arg7)
local notation "x₈" => m ((c : Thread nD τ).loc main_arg8)
local notation "x₉" => m ((c : Thread nD τ).loc main_arg9)
local notation "x₁₀" => m ((c : Thread nD τ).loc main_arg10)

/-- At region 0's exit: the first layer's product. -/
theorem W4_v30 : W4 m ρ c (Proc.devRef .tc main_v30) = val_main_v30 (F := Ideal) x₀ x₃ := by
  refine (W4_arr m ρ c 2).trans ((Linear.array0 (V3 m ρ) c).trans ?_)
  show Linear.mmRows (W3 m ρ c (Proc.devRef .tc main_arg0)) (W3 m ρ c (Proc.devRef .tc main_arg3)) = _
  rw [W3_arg0 m ρ c, W3_arg3 m ρ c]
  exact Cert.Bridge.mmRows_eq _ _

/-- At region 1's exit: the second layer's product. -/
theorem W7_v48 : W7 m ρ c (Proc.devRef .tc main_v48) = val_main_v48 (F := Ideal) x₀ x₁ x₃ x₄ x₅ := by
  refine (W7_arr m ρ c 2).trans ((Linear.array1 (V6 m ρ) c).trans ?_)
  show Linear.mmRows (W6 m ρ c (Proc.devRef .tc main_v47)) (W6 m ρ c (Proc.devRef .tc main_arg5)) = _
  rw [W6_v47 m ρ c (W4_v30 m ρ c), W6_arg5 m ρ c]
  exact (Cert.Bridge.mmRows_eq _ _).trans rfl

/-- At region 2's exit: the scorer's column. -/
theorem W9_v86 : W9 m ρ c (Proc.devRef .tc main_v86) = val_main_v92 (F := Ideal) x₀ x₁ x₂ x₃ x₄ x₅ x₆ x₇ x₈ x₉ x₁₀ := by
  refine (W9_arr m ρ c 5).trans ((Scorer.array2 (V8 m ρ) c).trans ?_)
  show Scorer.mlpRows (W8 m ρ c (Proc.devRef .tc main_v83)) (W8 m ρ c (Proc.devRef .tc main_arg7)) (W8 m ρ c (Proc.devRef .tc main_v84))
    (W8 m ρ c (Proc.devRef .tc main_arg9)) (W8 m ρ c (Proc.devRef .tc main_v85)) = _
  rw [W8_v83 m ρ c (W7_v48 m ρ c), W8_arg7 m ρ c, W8_arg9 m ρ c]
  exact Cert.Bridge.mlpRows_eq _ _ _ _ _ _ _ _ _ _ _ _ _ (W8_v84 m ρ c) (W8_v85 m ρ c)

/-- THE RESULT: what @main's fold leaves in the result buffer is the reference's last stage of the launch arrays. -/
theorem result : W10 m ρ c (Proc.devRef .tc main_v87) = val_main_v93 (F := Ideal) x₀ x₁ x₂ x₃ x₄ x₅ x₆ x₇ x₈ x₉ x₁₀ :=
  W10_v87 m ρ c (W9_v86 m ρ c)

end Regions

end Cert.KernelIdeal.Chain

end
-- ==== Proof.lean ====
/-
  A two-layer graph convolution followed by a pair scorer: the kernel against its jnp reference, over the extended reals.

  Both programs take node features x (100000 × 128), an edge list (2 × 1600000) and a list of node pairs (2 × 500000) with the weights and
  biases of two graph-convolution layers and of a two-layer scorer. With self loops appended to the edge list, deg is the scatter-add of ones
  over the edge targets, dinv = rsqrt deg where deg > 0 and 0 elsewhere, and norm (e) = dinv (row e) · dinv (col e). A layer is
      h ↦ scatter-add over col of ((h · W) gathered at row, each row scaled by norm) + b,
  clamped at zero after the first layer. The output, for each pair (s, d), is
      max ([h₂ (s), h₂ (d)] · Wm₁ + bm₁) 0 · Wm₂ + bm₂.

  The reference computes the three dense products (h · W₁, h₁ · W₂, and the scorer's two) on the host; the kernel computes each in a
  region over blocks of 5000 rows, after a change of float format that is the identity on the extended reals, into a zero accumulator.
  Everything else (the degree, the norm, the gathers, the scatter-adds, the bias additions, the clamp of the first layer) is the same
  sequence of host operations on buffers of the same names in both programs.

  So the two results are one function of the arguments, stage by stage:
  • a block's product is the restriction of the whole-array product to its rows, and the blocks cover the array
    (Proof/MatmulAt.lean, Proof/Linear.lean, Proof/Scorer.lean);
  • the whole-array product, read at an index, is the reference's host product read at that index: a sum over the contracted
    coordinate, the same terms in the same order (Proof/Bridge.lean);
  • between the regions the kernel's buffers hold what the reference's stages are (Proof/Chain.lean).
  No law of the extended reals beyond this re-indexing of a finite sum is used, so the finiteness of the inputs is never opened.
  The three frames: the two kernel programs' are the generated frame certificates; the reference's is its run with the result dropped.
  Nothing was rewritten by the idealization (the ledger is empty), so the kernel's idealization is its own text read over the extended reals.
-/
import proofs.«178651_j5016521801943_1_alg».proof.Defs
import proofs.«178651_j5016521801943_1_alg».proof.Proof.Gen.Kernel
import proofs.«178651_j5016521801943_1_alg».proof.Proof.Gen.Kernel.Frame
import proofs.«178651_j5016521801943_1_alg».proof.Proof.Gen.KernelIdeal
import proofs.«178651_j5016521801943_1_alg».proof.Proof.Gen.KernelIdeal.Frame
import proofs.«178651_j5016521801943_1_alg».proof.Proof.Gen.ReferenceIdeal
import proofs.«178651_j5016521801943_1_alg».proof.Proof.Gen.Pre_finite_inputs
import proofs.«178651_j5016521801943_1_alg».proof.Proof.RefRun
import proofs.«178651_j5016521801943_1_alg».proof.Proof.RefRead
import proofs.«178651_j5016521801943_1_alg».proof.Proof.ValueRun
import proofs.«178651_j5016521801943_1_alg».proof.Proof.Chain
import Idealize.ShloMosaic.Adequacy
import Idealize.ShloMosaic.Init

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference has no kernel: its frame is its run (every host operation's result a pure function of its operands) with the
    result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

/-- From memories that agree on the arguments both programs end with the same result array: the kernel's, read off the fold of
    @main's segments, is the reference's last stage of the kernel's arguments (Proof/Chain.lean), and the reference's run ends at that
    stage of its own arguments, which are the same arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Gen.W10 m ρ c (Proc.devRef .tc Cert.KernelIdeal.main_v87),
    Cert.KernelIdeal.GenV.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10⟩ := hagree c
  refine (Cert.ReferenceIdeal.ReadP.val_main_v93_eq m' c).trans ?_
  rw [h0, h1, h2, h3, h4, h5, h6, h7, h8, h9, h10]
  exact (Cert.KernelIdeal.Chain.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
